-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x2048 : Shape := ⟨3, ![64, 64, 2048]⟩
abbrev S_ : Shape := ⟨0, ![]⟩

class Facts : Prop where
  bcast_S_S64x64x2048 : S_.BroadcastsInDim S64x64x2048 (![] : Fin 0 → Fin S64x64x2048.rank)
  reducesTo_S64x64x2048_S_d0_1_2 : S64x64x2048.ReducesTo [0, 1, 2] S_
  h_S_ : 0 < S_.numel

variable [Facts]

def fn {F : FTy → Type} [FloatOps F] (main_arg0 : FVec F S64x64x2048 .f32) (main_arg1 : FVec F S64x64x2048 .f32) : IVec S_ 1 :=
  let main_v0 : FVec F S64x64x2048 .f32 := Host.absf main_arg0
  let main_cst : FVec F S_ .f32 := constant S_ .f32 0x7F800000#32
  let main_v1 : FVec F S64x64x2048 .f32 := broadcastInDim S64x64x2048 ![] bcast_S_S64x64x2048 main_cst
  let main_v2 : IVec S64x64x2048 1 := cmpf .olt main_v0 main_v1
  let main_c : IVec S_ 1 := constantI S_ 1 1#1
  let main_v3 : IVec S_ 1 := (fun x v => Host.reduce IntOp.andi x v reducesTo_S64x64x2048_S_d0_1_2 h_S_) main_v2 main_c
  let main_v4 : FVec F S64x64x2048 .f32 := Host.absf main_arg1
  let main_cst_0 : FVec F S_ .f32 := constant S_ .f32 0x7F800000#32
  let main_v5 : FVec F S64x64x2048 .f32 := broadcastInDim S64x64x2048 ![] bcast_S_S64x64x2048 main_cst_0
  let main_v6 : IVec S64x64x2048 1 := cmpf .olt main_v4 main_v5
  let main_c_1 : IVec S_ 1 := constantI S_ 1 1#1
  let main_v7 : IVec S_ 1 := (fun x v => Host.reduce IntOp.andi x v reducesTo_S64x64x2048_S_d0_1_2 h_S_) main_v6 main_c_1
  let main_v8 : IVec S_ 1 := andi main_v3 main_v7
  main_v8
-- ==== Kernel.lean ====
abbrev S64x64x2048 : Shape := ⟨3, ![64, 64, 2048]⟩
abbrev S64x2048 : Shape := ⟨2, ![64, 2048]⟩
abbrev S64x64x512 : Shape := ⟨3, ![64, 64, 512]⟩
abbrev S64x64x256 : Shape := ⟨3, ![64, 64, 256]⟩
abbrev S64x512 : Shape := ⟨2, ![64, 512]⟩
abbrev S8x64x512 : Shape := ⟨3, ![8, 64, 512]⟩
abbrev S8x64x256 : Shape := ⟨3, ![8, 64, 256]⟩
abbrev S8x512x256 : Shape := ⟨3, ![8, 512, 256]⟩
abbrev S8x512 : Shape := ⟨2, ![8, 512]⟩
abbrev S_ : Shape := ⟨0, ![]⟩
abbrev S64 : Shape := ⟨1, ![64]⟩

abbrev nBuf : Space → Nat
  | .hbm => 8
  | .vmem => 7
  | .smem => 0
  | _ => 0

abbrev bufTy : (tb : Table) → Fin (tcTables nBuf tb) → BufTy
  | .hbm, ⟨0, _⟩ => ⟨S64x64x2048, .f32⟩
  | .hbm, ⟨1, _⟩ => ⟨S64x64x2048, .f32⟩
  | .hbm, ⟨2, _⟩ => ⟨S64x2048, .f32⟩
  | .hbm, ⟨3, _⟩ => ⟨S_, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .local _ .vmem, ⟨0, _⟩ => ⟨S64x64x512, .f32⟩
  | .local _ .vmem, ⟨1, _⟩ => ⟨S64x64x512, .f32⟩
  | .local _ .vmem, ⟨2, _⟩ => ⟨S64x64x256, .f32⟩
  | .local _ .vmem, ⟨3, _⟩ => ⟨S64x64x256, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | _, _ => ⟨S64x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v91 : BitVec 1 := Scalar.cmpi .eq arg1 c7_i32
  let v92 : BitVec 32 := Scalar.extui v91
  let c0_i32_88 : BitVec 32 := 0#32
  let v93 : BitVec 1 := Scalar.cmpi .ne v92 c0_i32_88
  v93

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x64x512_S8x64x512_0_0_0 : ∀ a, (![0, 0, 0] : Fin 3 → Nat) a + S8x64x512.size a ≤ S64x64x512.size a
  h_S8x64x512 : 0 < S8x64x512.numel
  bitsLt_bf16_f32 : FTy.bits .bf16 < FTy.bits .f32
  inb_S64x64x256_S8x64x256_0_0_0 : ∀ a, (![0, 0, 0] : Fin 3 → Nat) a + S8x64x256.size a ≤ S64x64x256.size a
  h_S8x64x256 : 0 < S8x64x256.numel
  reduces_S8x512x256_S8x512 : S8x512x256.Reduces [2] S8x512
  inb_S64x512_S8x512_0_0 : ∀ a, (![0, 0] : Fin 2 → Nat) a + S8x512.size a ≤ S64x512.size a
  h_S8x512 : 0 < S8x512.numel
  shapeCasts_S8x512_S8x512 : S8x512.ShapeCasts S8x512
  inb_S64x64x512_S8x64x512_8_0_0 : ∀ a, (![8, 0, 0] : Fin 3 → Nat) a + S8x64x512.size a ≤ S64x64x512.size a
  inb_S64x64x256_S8x64x256_8_0_0 : ∀ a, (![8, 0, 0] : Fin 3 → Nat) a + S8x64x256.size a ≤ S64x64x256.size a
  inb_S64x512_S8x512_8_0 : ∀ a, (![8, 0] : Fin 2 → Nat) a + S8x512.size a ≤ S64x512.size a
  inb_S64x64x512_S8x64x512_16_0_0 : ∀ a, (![16, 0, 0] : Fin 3 → Nat) a + S8x64x512.size a ≤ S64x64x512.size a
  inb_S64x64x256_S8x64x256_16_0_0 : ∀ a, (![16, 0, 0] : Fin 3 → Nat) a + S8x64x256.size a ≤ S64x64x256.size a
  inb_S64x512_S8x512_16_0 : ∀ a, (![16, 0] : Fin 2 → Nat) a + S8x512.size a ≤ S64x512.size a
  inb_S64x64x512_S8x64x512_24_0_0 : ∀ a, (![24, 0, 0] : Fin 3 → Nat) a + S8x64x512.size a ≤ S64x64x512.size a
  inb_S64x64x256_S8x64x256_24_0_0 : ∀ a, (![24, 0, 0] : Fin 3 → Nat) a + S8x64x256.size a ≤ S64x64x256.size a
  inb_S64x512_S8x512_24_0 : ∀ a, (![24, 0] : Fin 2 → Nat) a + S8x512.size a ≤ S64x512.size a
  inb_S64x64x512_S8x64x512_32_0_0 : ∀ a, (![32, 0, 0] : Fin 3 → Nat) a + S8x64x512.size a ≤ S64x64x512.size a
  inb_S64x64x256_S8x64x256_32_0_0 : ∀ a, (![32, 0, 0] : Fin 3 → Nat) a + S8x64x256.size a ≤ S64x64x256.size a
  inb_S64x512_S8x512_32_0 : ∀ a, (![32, 0] : Fin 2 → Nat) a + S8x512.size a ≤ S64x512.size a
  inb_S64x64x512_S8x64x512_40_0_0 : ∀ a, (![40, 0, 0] : Fin 3 → Nat) a + S8x64x512.size a ≤ S64x64x512.size a
  inb_S64x64x256_S8x64x256_40_0_0 : ∀ a, (![40, 0, 0] : Fin 3 → Nat) a + S8x64x256.size a ≤ S64x64x256.size a
  inb_S64x512_S8x512_40_0 : ∀ a, (![40, 0] : Fin 2 → Nat) a + S8x512.size a ≤ S64x512.size a
  inb_S64x64x512_S8x64x512_48_0_0 : ∀ a, (![48, 0, 0] : Fin 3 → Nat) a + S8x64x512.size a ≤ S64x64x512.size a
  inb_S64x64x256_S8x64x256_48_0_0 : ∀ a, (![48, 0, 0] : Fin 3 → Nat) a + S8x64x256.size a ≤ S64x64x256.size a
  inb_S64x512_S8x512_48_0 : ∀ a, (![48, 0] : Fin 2 → Nat) a + S8x512.size a ≤ S64x512.size a
  inb_S64x64x512_S8x64x512_56_0_0 : ∀ a, (![56, 0, 0] : Fin 3 → Nat) a + S8x64x512.size a ≤ S64x64x512.size a
  inb_S64x64x256_S8x64x256_56_0_0 : ∀ a, (![56, 0, 0] : Fin 3 → Nat) a + S8x64x256.size a ≤ S64x64x256.size a
  inb_S64x512_S8x512_56_0 : ∀ a, (![56, 0] : Fin 2 → Nat) a + S8x512.size a ≤ S64x512.size a
  reducesTo_S64x2048_S64_d1 : S64x2048.ReducesTo [1] S64
  h_S_ : 0 < S_.numel
  bcast_S_S64 : S_.BroadcastsInDim S64 (![] : Fin 0 → Fin S64.rank)
  dot_S8x64x512_S8x64x256_S8x512x256_1_1_2_2_0_0_wf : DotDims.WF S8x64x512 S8x64x256 S8x512x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x512.size a ≤ S64x64x2048.size a
  hwx0_0 : ∀ i : grid0.Coords, EltTy.bits .f32 = 32 ∨ (Rect.block (s := S64x64x2048) S64x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x256.size a ≤ S64x64x2048.size a
  hwx0_1 : ∀ i : grid0.Coords, EltTy.bits .f32 = 32 ∨ (Rect.block (s := S64x64x2048) S64x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x2048.size a
  hwx0_2 : ∀ i : grid0.Coords, EltTy.bits .f32 = 32 ∨ (Rect.block (s := S64x2048) S64x512.size (cc0_transform_2 i) (hinb0_2 i)).WholeWords (EltTy.packing .f32)

variable [Facts₀]

def dot_S8x64x512_S8x64x256_S8x512x256_1_1_2_2_0_0 : DotDims S8x64x512 S8x64x256 S8x512x256 where
  lhsContracting := [1]
  rhsContracting := [1]
  lhsNonContracting := [2]
  rhsNonContracting := [2]
  lhsBatch := [0]
  rhsBatch := [0]
  wf := dot_S8x64x512_S8x64x256_S8x512x256_1_1_2_2_0_0_wf

abbrev win0_0 : Pipeline.Window sig grid0 :=
  Pipeline.Window.ofSpec (Memref.whole main_arg0) S64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x64x2048 : Shape := ⟨3, ![64, 64, 2048]⟩
abbrev S64x2048x2048 : Shape := ⟨3, ![64, 2048, 2048]⟩
abbrev S_ : Shape := ⟨0, ![]⟩
abbrev S64x2048 : Shape := ⟨2, ![64, 2048]⟩
abbrev S64 : Shape := ⟨1, ![64]⟩

abbrev nBuf : Space → Nat
  | .hbm => 10
  | .vmem => 0
  | .smem => 0
  | _ => 0

abbrev bufTy : (tb : Table) → Fin (tcTables nBuf tb) → BufTy
  | .hbm, ⟨0, _⟩ => ⟨S64x64x2048, .f32⟩
  | .hbm, ⟨1, _⟩ => ⟨S64x64x2048, .f32⟩
  | .hbm, ⟨2, _⟩ => ⟨S64x2048x2048, .f32⟩
  | .hbm, ⟨3, _⟩ => ⟨S_, .f32⟩
  | .hbm, ⟨4, _⟩ => ⟨S64x2048, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | _, _ => ⟨S64x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  reducesTo_S64x2048x2048_S64x2048_d2 : S64x2048x2048.ReducesTo [2] S64x2048
  h_S_ : 0 < S_.numel
  reducesTo_S64x2048_S64_d1 : S64x2048.ReducesTo [1] S64
  bcast_S_S64 : S_.BroadcastsInDim S64 (![] : Fin 0 → Fin S64.rank)
  dot_S64x64x2048_S64x64x2048_S64x2048x2048_1_1_2_2_0_0_wf : DotDims.WF S64x64x2048 S64x64x2048 S64x2048x2048 [1] [1] [2] [2] [0] [0]

variable [Facts₀]

def dot_S64x64x2048_S64x64x2048_S64x2048x2048_1_1_2_2_0_0 : DotDims S64x64x2048 S64x64x2048 S64x2048x2048 where
  lhsContracting := [1]
  rhsContracting := [1]
  lhsNonContracting := [2]
  rhsNonContracting := [2]
  lhsBatch := [0]
  rhsBatch := [0]
  wf := dot_S64x64x2048_S64x64x2048_S64x2048x2048_1_1_2_2_0_0_wf

class Facts : Prop extends Facts₀ where

variable [Facts]
-- ==== Proof.Spec.lean ====
/-
  The mathematics of the best-match similarity, apart from any program.

  For query columns `Q[b, d, q]` and support columns `K[b, d, s]` the similarity is `sim b q s = ∑ d, Q[b,d,q] · K[b,d,s]`
  and the best match of query `q` is the maximum of `sim b q s` over all 2048 supports `s`, taken from a starting value
  `z` (the programs start from −∞, but nothing below depends on what `z` is). A maximum over 2048 supports may be taken
  256 supports at a time: `runMax z g n` is the maximum of `g` over the supports below `n`, and adding the next 256
  supports to it is one `max` with their own maximum (`runMax_tile`), because `max` is associative, commutative and
  idempotent: a fold of `max` is characterised by the upper bounds it has (`Finset.fold_max_le`), so a repeated starting
  value does no harm.
-/
import Mathlib.Data.Finset.Fold
import Mathlib.Data.EReal.Basic
import Idealize.ShloMosaic.Lib.ValueIdx

noncomputable section

namespace Cert.BestSim

open Idealize.ShloMosaic Idealize.ShloMosaic.ValueIdx

section RunningMax

variable {α : Type} [LinearOrder α]

/-- The maximum, from `z`, of `g` over the supports `s < n`. -/
def runMax (z : α) (g : Fin 2048 → α) (n : ℕ) : α :=
  (Finset.univ.filter fun s : Fin 2048 => s.val < n).fold max z g

/-- Its upper bounds: those of `z` and of every `g s` with `s < n`. -/
theorem runMax_le_iff (z : α) (g : Fin 2048 → α) (n : ℕ) (c : α) :
    runMax z g n ≤ c ↔ z ≤ c ∧ ∀ s : Fin 2048, s.val < n → g s ≤ c := by
  unfold runMax
  rw [Finset.fold_max_le]
  simp only [Finset.mem_filter, Finset.mem_univ, true_and]

/-- Over no support at all it is the starting value. -/
theorem runMax_zero (z : α) (g : Fin 2048 → α) : runMax z g 0 = z := by
  unfold runMax
  rw [Finset.filter_false_of_mem (fun s _ => Nat.not_lt_zero _), Finset.fold_empty]

/-- Over all 2048 supports it is the plain maximum. -/
theorem runMax_full (z : α) (g : Fin 2048 → α) : runMax z g 2048 = Finset.univ.fold max z g := by
  unfold runMax
  rw [Finset.filter_true_of_mem (fun s _ => s.isLt)]

/-- THE TILE LAW: the maximum over the supports below `n + 256` is the maximum over those below `n`, joined by `max` with
    the maximum (from the same starting value) over the 256 supports `n, …, n + 255`. -/
theorem runMax_tile (z : α) (g : Fin 2048 → α) (n : ℕ) (hn : n + 256 ≤ 2048) :
    runMax z g (n + 256)
      = max (runMax z g n) ((Finset.univ : Finset (Fin 256)).fold max z fun s => g ⟨n + s.val, by have := s.isLt; omega⟩) := by
  refine eq_of_forall_ge_iff fun c => ?_
  rw [max_le_iff, runMax_le_iff, runMax_le_iff, Finset.fold_max_le]
  constructor
  · rintro ⟨hz, h⟩
    exact ⟨⟨hz, fun s hs => h s (by omega)⟩, hz, fun s _ => h _ (by have := s.isLt; show n + s.val < n + 256; omega)⟩
  · rintro ⟨⟨hz, h1⟩, _, h2⟩
    refine ⟨hz, fun s hs => ?_⟩
    by_cases hlt : s.val < n
    · exact h1 s hlt
    · have e := h2 ⟨s.val - n, by omega⟩ (Finset.mem_univ _)
      have es : (⟨n + (s.val - n), by have := s.isLt; omega⟩ : Fin 2048) = s := Fin.ext (by show n + (s.val - n) = s.val; omega)
      rwa [es] at e

/-- Joining the starting value itself changes nothing. -/
theorem max_runMax_self (z : α) (g : Fin 2048 → α) (n : ℕ) : max z (runMax z g n) = runMax z g n :=
  max_eq_right ((runMax_le_iff z g n _).mp le_rfl).1

end RunningMax

/-- The similarity of query column `q` and support column `s` of batch `b`: the sum over the 64 features of the products. -/
def sim (Q K : (⟨3, ![64, 64, 2048]⟩ : Shape).Idx → EReal) (b : Fin 64) (q s : Fin 2048) : EReal :=
  ∑ d : Fin 64, Q (ix3 b d q) * K (ix3 b d s)

/-- The best match: at (b, q) the maximum over every support `s` of the similarity, from `z`. -/
def best (z : EReal) (Q K : (⟨3, ![64, 64, 2048]⟩ : Shape).Idx → EReal) : (⟨2, ![64, 2048]⟩ : Shape).Idx → EReal :=
  fun y => (Finset.univ : Finset (Fin 2048)).fold max z fun s => sim Q K (y 0) (y 1) s

end Cert.BestSim

end
-- ==== Proof.RefRead.lean ====
/-
  The reference's best-match array, over the extended reals.

  The reference forms every similarity `∑ d, Q[b, d, q] · K[b, d, s]` in one batched product and takes, for each (b, q),
  the maximum over all 2048 supports `s` from −∞. A reduction by `max` over one axis is the fold of `max` over that axis's
  coordinates, so the reduced array is `best` of the two arguments.
-/
import proofs.«127846_j47485158425242_1_alg».proof.Defs
import proofs.«127846_j47485158425242_1_alg».proof.Proof.Gen.ReferenceIdeal.Run
import proofs.«127846_j47485158425242_1_alg».proof.Proof.Gen.ReferenceIdeal.Read
import proofs.«127846_j47485158425242_1_alg».proof.Proof.Spec
import Idealize.ShloMosaic.PureOps.Reduce

noncomputable section

namespace Cert.ReferenceIdeal.BestSim

open Idealize.ShloMosaic Idealize.ShloMosaic.ValueIdx Cert.ReferenceIdeal Cert.ReferenceIdeal.Gen Cert.ReferenceIdeal.Read

/-- The reference's maximum over the supports of its similarities is `best` from −∞. -/
theorem v1_eq (x0 x1 : (⟨S64x64x2048, .f32⟩ : BufTy).Contents (Elt Ideal)) :
    val_main_v1 (F := Ideal) x0 x1 = Cert.BestSim.best (Ideal.ofBits .f32 0xFF800000#32) x0 x1 := by
  funext y
  obtain ⟨b, q, rfl⟩ : ∃ (b : Fin 64) (q : Fin 2048), y = ix2 b q := ⟨y 0, y 1, eq_ix2 y⟩
  have hR : S64x2048x2048.Reduces [2] S64x2048 :=
    ⟨Facts₀.reducesTo_S64x2048x2048_S64x2048_d2.1, by decide, Facts₀.reducesTo_S64x2048x2048_S64x2048_d2.2⟩
  have e := Host.reduce_eq_fold_single (s := S64x2048x2048) (t := S64x2048) (a := (2 : Fin 3)) (u := S_)
    (FloatOps.maximumf (F := Ideal) (φ := .f32)) (val_main_v0 (F := Ideal) x0 x1) (val_main_cst (F := Ideal))
    Facts₀.reducesTo_S64x2048x2048_S64x2048_d2 hR Facts₀.h_S_ (ix2 b q)
  unfold val_main_v1
  refine e.trans ?_
  show Finset.fold max (Ideal.ofBits .f32 0xFF800000#32) (fun s : Fin 2048 => val_main_v0 (F := Ideal) x0 x1 (hR.lift (ix2 b q) s)) Finset.univ
    = Finset.fold max (Ideal.ofBits .f32 0xFF800000#32) (fun s : Fin 2048 => Cert.BestSim.sim x0 x1 b q s) Finset.univ
  refine congrArg (fun f => Finset.fold max (Ideal.ofBits .f32 0xFF800000#32) f (Finset.univ : Finset (Fin 2048))) (funext fun s => ?_)
  have el : hR.lift (ix2 b q) s = ix3 b q s :=
    funext fun a => Fin.ext (by match a with | ⟨0, _⟩ => rfl | ⟨1, _⟩ => rfl | ⟨2, _⟩ => rfl)
  rw [el, val_main_v0_apply]
  unfold Cert.BestSim.sim
  refine Finset.sum_congr rfl fun d _ => ?_
  refine congrArg₂ (· * ·) (congrArg x0 ?_) (congrArg x1 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

end Cert.ReferenceIdeal.BestSim

end
-- ==== Proof.Chunk.lean ====
/-
  One batch chunk of the kernel body, read at an index over the extended reals.

  Every chunk of eight batches does the same thing: it multiplies the chunk's query block `A[r, d, q]` with the chunk's
  support block `B[r, d, s]` contracting the feature axis `d` (a batched product: batch axis `r`, the query column `q`
  and the support column `s` kept), takes the maximum over the 256 supports `s` of the tile from −∞, and joins it by
  `max` with what the scratch rows `P[r, q]` held. A change of float format is the identity at the ideal values, so at
  (r, q) the chunk leaves
      max (P[r, q]) (max over s of ∑ d, A[r, d, q] · B[r, d, s]).
  The eight chunks of the body are eight copies of this one payload (the fifth is printed in two halves).
-/
import proofs.«127846_j47485158425242_1_alg».proof.Proof.Gen.KernelIdeal.Skeleton
import proofs.«127846_j47485158425242_1_alg».proof.Proof.Spec
import Idealize.ShloMosaic.Lib.ValueIdx
import Idealize.ShloMosaic.Lib.Pipeline.Value
import Idealize.ShloMosaic.PureOps.Ideal.Laws

noncomputable section

namespace Cert.KernelIdeal.BestSim

open Idealize.ShloMosaic Idealize.ShloMosaic.ValueIdx Cert.KernelIdeal Cert.KernelIdeal.Gen

/-- −∞, as the kernel's constant spells it. -/
abbrev ninf : EReal := Ideal.ofBits .f32 0xFF800000#32

/-! ## The eight chunks are one payload -/

variable {F : FTy → Type} [FloatOps F]

theorem pay4_eq : @k0_pay4 F _ = k0_pay3 := rfl
theorem pay5_eq : @k0_pay5 F _ = k0_pay3 := rfl
theorem pay6_eq : @k0_pay6 F _ = k0_pay3 := rfl
theorem pay9_eq : @k0_pay9 F _ = k0_pay3 := rfl
theorem pay10_eq : @k0_pay10 F _ = k0_pay3 := rfl
theorem pay1_eq : @k0_pay1 F _ = k0_pay3 := rfl
/-- The fifth chunk: its product and tile maximum (`k0_pay7`), then the join with the scratch rows (`k0_pay8`). -/
theorem pay8_pay7_eq (A : Vec F S8x64x512 .f32) (B : Vec F S8x64x256 .f32) (P : Vec F S8x512 .f32) :
    k0_pay8 (k0_pay7 A B) P = k0_pay3 A B P := rfl

/-! ## The batched product at an index -/

theorem lhs_ax0 (i : S8x512x256.Idx) (k : dot_S8x64x512_S8x64x256_S8x512x256_1_1_2_2_0_0.contr.Idx) :
    (dot_S8x64x512_S8x64x256_S8x512x256_1_1_2_2_0_0.lhsIdx i k 0).val = (i 0).val := by
  unfold DotDims.lhsIdx
  rw [dif_pos (show (0 : Fin S8x64x512.rank) ∈ dot_S8x64x512_S8x64x256_S8x512x256_1_1_2_2_0_0.lhsBatch by decide)]
  rfl
theorem lhs_ax1 (i : S8x512x256.Idx) (k : dot_S8x64x512_S8x64x256_S8x512x256_1_1_2_2_0_0.contr.Idx) :
    (dot_S8x64x512_S8x64x256_S8x512x256_1_1_2_2_0_0.lhsIdx i k 1).val = (k ⟨0, by decide⟩).val :=
  dot_S8x64x512_S8x64x256_S8x512x256_1_1_2_2_0_0.lhsIdx_val_of_single rfl i k
theorem lhs_ax2 (i : S8x512x256.Idx) (k : dot_S8x64x512_S8x64x256_S8x512x256_1_1_2_2_0_0.contr.Idx) :
    (dot_S8x64x512_S8x64x256_S8x512x256_1_1_2_2_0_0.lhsIdx i k 2).val = (i 1).val := by
  unfold DotDims.lhsIdx
  rw [dif_neg (show ¬(2 : Fin S8x64x512.rank) ∈ dot_S8x64x512_S8x64x256_S8x512x256_1_1_2_2_0_0.lhsBatch by decide), dif_pos (show (2 : Fin S8x64x512.rank) ∈ dot_S8x64x512_S8x64x256_S8x512x256_1_1_2_2_0_0.lhsNonContracting by decide)]
  rfl
theorem rhs_ax0 (i : S8x512x256.Idx) (k : dot_S8x64x512_S8x64x256_S8x512x256_1_1_2_2_0_0.contr.Idx) :
    (dot_S8x64x512_S8x64x256_S8x512x256_1_1_2_2_0_0.rhsIdx i k 0).val = (i 0).val := by
  unfold DotDims.rhsIdx
  rw [dif_pos (show (0 : Fin S8x64x256.rank) ∈ dot_S8x64x512_S8x64x256_S8x512x256_1_1_2_2_0_0.rhsBatch by decide)]
  rfl
theorem rhs_ax1 (i : S8x512x256.Idx) (k : dot_S8x64x512_S8x64x256_S8x512x256_1_1_2_2_0_0.contr.Idx) :
    (dot_S8x64x512_S8x64x256_S8x512x256_1_1_2_2_0_0.rhsIdx i k 1).val = (k ⟨0, by decide⟩).val :=
  dot_S8x64x512_S8x64x256_S8x512x256_1_1_2_2_0_0.rhsIdx_val_of_single rfl i k
theorem rhs_ax2 (i : S8x512x256.Idx) (k : dot_S8x64x512_S8x64x256_S8x512x256_1_1_2_2_0_0.contr.Idx) :
    (dot_S8x64x512_S8x64x256_S8x512x256_1_1_2_2_0_0.rhsIdx i k 2).val = (i 2).val := by
  unfold DotDims.rhsIdx
  rw [dif_neg (show ¬(2 : Fin S8x64x256.rank) ∈ dot_S8x64x512_S8x64x256_S8x512x256_1_1_2_2_0_0.rhsBatch by decide), dif_pos (show (2 : Fin S8x64x256.rank) ∈ dot_S8x64x512_S8x64x256_S8x512x256_1_1_2_2_0_0.rhsNonContracting by decide)]
  rfl

/-- The chunk's product into the zero accumulator, at batch `r`, query column `q`, support column `s`: the sum over the
    64 features of the products. -/
theorem matmul_at (A : FVec Ideal S8x64x512 .bf16) (B : FVec Ideal S8x64x256 .bf16) (r : Fin 8) (q : Fin 512) (s : Fin 256) :
    matmul dot_S8x64x512_S8x64x256_S8x512x256_1_1_2_2_0_0 none A B (constant S8x512x256 .f32 0x00000000#32) (ix3 r q s)
      = ∑ d : Fin 64, A (ix3 r d q) * B (ix3 r d s) := by
  simp only [matmul]
  rw [Ideal.matmul_constant_zero_apply, ← Equiv.sum_comp (contrEquiv1 dot_S8x64x512_S8x64x256_S8x512x256_1_1_2_2_0_0 64 rfl rfl).symm]
  refine Finset.sum_congr rfl fun k _ => ?_
  have hk := contrEquiv1_symm_val dot_S8x64x512_S8x64x256_S8x512x256_1_1_2_2_0_0 64 rfl rfl k
  have el : dot_S8x64x512_S8x64x256_S8x512x256_1_1_2_2_0_0.lhsIdx (ix3 r q s) ((contrEquiv1 dot_S8x64x512_S8x64x256_S8x512x256_1_1_2_2_0_0 64 rfl rfl).symm k) = ix3 r k q := funext fun a => Fin.ext (by
    match a with
    | ⟨0, _⟩ => exact lhs_ax0 _ _
    | ⟨1, _⟩ => exact (lhs_ax1 _ _).trans hk
    | ⟨2, _⟩ => exact lhs_ax2 _ _)
  have er : dot_S8x64x512_S8x64x256_S8x512x256_1_1_2_2_0_0.rhsIdx (ix3 r q s) ((contrEquiv1 dot_S8x64x512_S8x64x256_S8x512x256_1_1_2_2_0_0 64 rfl rfl).symm k) = ix3 r k s := funext fun a => Fin.ext (by
    match a with
    | ⟨0, _⟩ => exact rhs_ax0 _ _
    | ⟨1, _⟩ => exact (rhs_ax1 _ _).trans hk
    | ⟨2, _⟩ => exact rhs_ax2 _ _)
  rw [el, er]

/-! ## The chunk's payload at an index -/

/-- The maximum over the tile's 256 supports, from −∞, at (r, q). -/
theorem tileMax_at (src : FVec Ideal S8x512x256 .f32) (hφ : FKind.Formats .f32)
    (hacc : (0xFF800000#32 : BitVec 32) = 0xFF800000#32) (r : Fin 8) (q : Fin 512) :
    multiReduction .maximumf [2] S8x512 src 0xFF800000#32 Facts₀.reduces_S8x512x256_S8x512 hφ hacc (ix2 r q)
      = (Finset.univ : Finset (Fin 256)).fold max ninf fun s => src (ix3 r q s) := by
  refine (Ideal.multiReduction_maximumf_single src 0xFF800000#32 Facts₀.reduces_S8x512x256_S8x512 hφ hacc (ix2 r q)).trans ?_
  refine congrArg (fun f => Finset.fold max ninf f (Finset.univ : Finset (Fin 256))) (funext fun s => ?_)
  exact congrArg src (funext fun a => Fin.ext (by match a with | ⟨0, _⟩ => rfl | ⟨1, _⟩ => rfl | ⟨2, _⟩ => rfl))

/-- What a chunk stores at (r, q): the old scratch value joined with the tile's maximum of the similarities. -/
theorem pay_at (A : Vec Ideal S8x64x512 .f32) (B : Vec Ideal S8x64x256 .f32) (P : Vec Ideal S8x512 .f32) (r : Fin 8) (q : Fin 512) :
    k0_pay3 (F := Ideal) A B P (ix2 r q)
      = max (P (ix2 r q)) ((Finset.univ : Finset (Fin 256)).fold max ninf fun s => ∑ d : Fin 64, A (ix3 r d q) * B (ix3 r d s)) := by
  unfold k0_pay3
  rw [shapeCast_self, maximumf_apply]
  refine congrArg (max (P (ix2 r q))) ?_
  refine (tileMax_at _ _ _ r q).trans ?_
  refine congrArg (fun f => Finset.fold max ninf f (Finset.univ : Finset (Fin 256))) (funext fun s => ?_)
  exact matmul_at _ _ r q s

end Cert.KernelIdeal.BestSim

end
-- ==== Proof.Pieces.lean ====
/-
  What one grid point's body leaves in the scratch accumulator and in the output block, over the extended reals.

  At a grid point the body holds a query tile `x0[b, d, q]` (64 batches, 64 features, 512 query columns) and a support
  tile `x1[b, d, s]` (256 support columns), and for each of eight chunks of eight batches it replaces the chunk's rows of
  the scratch `xs[b, q]` by their `max` with the tile's best similarity. The eight row blocks tile the scratch, and row
  `b` of the scratch is touched by the chunk that holds batch `b` only, so after the point the scratch holds, at every
  (b, q),
      stepFn x0 x1 xs (b, q) = max (xs[b, q]) (max over the tile's s of ∑ d, x0[b, d, q] · x1[b, d, s]).
  At a point that first fills the scratch with −∞ the same holds with `xs` the −∞ fill: each chunk reads its rows back
  from the fill, the earlier chunks' rows being other rows. At a point that also copies the scratch to the output block,
  the output block is that same array.
-/
import proofs.«127846_j47485158425242_1_alg».proof.Proof.Gen.KernelIdeal.Frame
import proofs.«127846_j47485158425242_1_alg».proof.Proof.Chunk
import Idealize.ShloMosaic.Lib.Pipeline.Value
import Idealize.ShloMosaic.Lib.Pipeline.CanonAppend
import Idealize.ShloMosaic.Lib.Pipeline.RowLoads
import Idealize.ShloMosaic.Lib.Ring
import Idealize.ShloMosaic.Lib.Tactic

set_option maxRecDepth 16384

noncomputable section

namespace Cert.KernelIdeal.BestSim

open Idealize.ShloMosaic Idealize.ShloMosaic.TcCoe Idealize.ShloMosaic.Tactic Idealize.ShloMosaic.ValueIdx Idealize.SL.Sem
open Cert.KernelIdeal Cert.KernelIdeal.Gen

/-- One grid point's new scratch value at batch `b`, query column `q` of the tile. -/
def stepAt (x0 : Vec Ideal S64x64x512 .f32) (x1 : Vec Ideal S64x64x256 .f32) (xs : Vec Ideal S64x512 .f32)
    (b : Fin 64) (q : Fin 512) : EReal :=
  max (xs (ix2 b q)) ((Finset.univ : Finset (Fin 256)).fold max ninf fun s => ∑ d : Fin 64, x0 (ix3 b d q) * x1 (ix3 b d s))

/-- One grid point's new scratch, as an array. -/
def stepFn (x0 : Vec Ideal S64x64x512 .f32) (x1 : Vec Ideal S64x64x256 .f32) (xs : Vec Ideal S64x512 .f32) :
    Vec Ideal S64x512 .f32 :=
  fun y => stepAt x0 x1 xs (y 0) (y 1)

theorem hz2 : (![0, 0] : Fin 2 → Nat) = fun _ => 0 := funext fun a => by fin_cases a <;> rfl

/-- The −∞ fill is −∞ everywhere. -/
theorem fill_at (y : S64x512.Idx) : k0_pay2 (F := Ideal) y = ninf := by
  unfold k0_pay2
  rw [shapeCast_self]
  rfl

/-- The chunk that starts at batch `o`: its payload, over the rows `o … o + 7` of the three buffers, is `stepFn` at the
    place in the whole scratch that the chunk's local index names. -/
theorem piece_eq (o : Nat) (ho : o + 8 ≤ 64)
    (inb2 : ∀ a, (![o, 0] : Fin 2 → Nat) a + S8x512.size a ≤ S64x512.size a)
    (inb3 : ∀ a, (![o, 0, 0] : Fin 3 → Nat) a + S8x64x512.size a ≤ S64x64x512.size a)
    (inb3' : ∀ a, (![o, 0, 0] : Fin 3 → Nat) a + S8x64x256.size a ≤ S64x64x256.size a)
    (x0 : Vec Ideal S64x64x512 .f32) (x1 : Vec Ideal S64x64x256 .f32) (xs : Vec Ideal S64x512 .f32) (x : S8x512.Idx) :
    k0_pay3 (F := Ideal) (View.ld x0 (Rect.unit (s := S64x64x512) ![o, 0, 0] S8x64x512.size inb3))
        (View.ld x1 (Rect.unit (s := S64x64x256) ![o, 0, 0] S8x64x256.size inb3'))
        (View.ld xs (Rect.unit (s := S64x512) ![o, 0] S8x512.size inb2)) x
      = stepFn x0 x1 xs ((Rect.unit (s := S64x512) ![o, 0] S8x512.size inb2).emb x) := by
  obtain ⟨r, q, rfl⟩ : ∃ (r : Fin 8) (q : Fin 512), x = ix2 r q := ⟨x 0, x 1, eq_ix2 x⟩
  have hr : o + r.val < 64 := by have := r.isLt; omega
  have e2 : (Rect.unit (s := S64x512) ![o, 0] S8x512.size inb2).idx (ix2 r q) = ix2 (⟨o + r.val, hr⟩ : Fin 64) q :=
    funext fun a => Fin.ext (by
      match a with
      | ⟨0, _⟩ => show o + 1 * r.val = o + r.val; omega
      | ⟨1, _⟩ => show 0 + 1 * q.val = q.val; omega)
  have e3 : ∀ d : Fin 64, (Rect.unit (s := S64x64x512) ![o, 0, 0] S8x64x512.size inb3).idx (ix3 r d q)
      = ix3 (⟨o + r.val, hr⟩ : Fin 64) d q := fun d =>
    funext fun a => Fin.ext (by
      match a with
      | ⟨0, _⟩ => show o + 1 * r.val = o + r.val; omega
      | ⟨1, _⟩ => show 0 + 1 * d.val = d.val; omega
      | ⟨2, _⟩ => show 0 + 1 * q.val = q.val; omega)
  have e3' : ∀ (d : Fin 64) (s : Fin 256), (Rect.unit (s := S64x64x256) ![o, 0, 0] S8x64x256.size inb3').idx (ix3 r d s)
      = ix3 (⟨o + r.val, hr⟩ : Fin 64) d s := fun d s =>
    funext fun a => Fin.ext (by
      match a with
      | ⟨0, _⟩ => show o + 1 * r.val = o + r.val; omega
      | ⟨1, _⟩ => show 0 + 1 * d.val = d.val; omega
      | ⟨2, _⟩ => show 0 + 1 * s.val = s.val; omega)
  rw [pay_at, show (Rect.unit (s := S64x512) ![o, 0] S8x512.size inb2).emb (ix2 r q) = ix2 (⟨o + r.val, hr⟩ : Fin 64) q from e2]
  simp only [View.ld, e2, e3, e3']
  rfl

/-- A load of the eight scratch rows from row `o'` passes over an earlier store of eight rows that end at or before row `o'`. -/
theorem readCov_skip {κ : Kind} (v : View sig κ .vmem S64x512 .f32) (o o' : Nat) (h : o + 8 ≤ o')
    (w : S8x512.Idx → Elt Ideal .f32) (L : List (View.Piece (Elt Ideal) S64x512 .f32))
    (inb : ∀ a, (![o, 0] : Fin 2 → Nat) a + S8x512.size a ≤ S64x512.size a)
    (inb' : ∀ a, (![o', 0] : Fin 2 → Nat) a + S8x512.size a ≤ S64x512.size a) :
    v.readCov ((⟨Rect.unit (s := S64x512) ![o, 0] S8x512.size inb, w⟩ : View.Piece (Elt Ideal) S64x512 .f32) :: L)
        (Rect.unit (s := S64x512) ![o', 0] S8x512.size inb').toLoadRect
      = v.readCov L (Rect.unit (s := S64x512) ![o', 0] S8x512.size inb').toLoadRect :=
  View.readCov_cons_of_rows_disjoint v o o' (Or.inl h) w L inb inb'

/-! ## What each case leaves -/

/-- A point in the middle of a sweep (neither first nor last support tile): the scratch ends at `stepFn` of what it held. -/
theorem sout_B (c : Dev nD) (i : grid0.Coords) (a2 : Memref sig .tc .vmem S64x64x512 .f32) (h2 : a2.IsWhole) (a3 : Memref sig .tc .vmem S64x64x256 .f32) (h3 : a3.IsWhole) (a4 : Memref sig .tc .vmem S64x512 .f32) (h4 : a4.IsWhole) (a5 : Memref sig .tc .vmem S64x512 .f32) (h5 : a5.IsWhole) (hc0 : ¬cond0_0 i) (hc1 : ¬cond0_1 i)
    (x0 : Vec Ideal S64x64x512 .f32) (x1 : Vec Ideal S64x64x256 .f32) (xs0 : Vec Ideal S64x512 .f32) :
    sout0_B_0 (F := Ideal) c i a2 h2 a3 h3 a4 h4 a5 h5 hc0 hc1 x0 x1 xs0 = stepFn x0 x1 xs0 := by
  unfold sout0_B_0
  rw [View.read_writes_eq_canon _ _ _ (scover0_B_0 c i a2 h2 a3 h3 a4 h4 a5 h5 hc0 hc1 x0 x1 xs0)]
  funext y
  have hc := scover0_B_0 c i a2 h2 a3 h3 a4 h4 a5 h5 hc0 hc1 x0 x1 xs0 y
  revert hc
  unfold kernelRun0_B
  dsimp only
  sl_unfold_words
  simp only [pay1_eq, pay4_eq, pay5_eq, pay6_eq, pay9_eq, pay10_eq, pay8_pay7_eq, View.readAt_eq_ld, h2.read_unread, h3.read_unread, h5.read_unread]
  intro hc
  refine View.canon_apply_of_pieces (stepFn x0 x1 xs0) _ ?_ y hc
  intro p hp
  simp only [List.mem_cons, List.mem_nil_iff, or_false] at hp
  rcases hp with rfl | rfl | rfl | rfl | rfl | rfl | rfl | rfl
  all_goals exact fun x => piece_eq _ (by omega) _ _ _ x0 x1 xs0 x

/-- The last support tile of a sweep: the scratch likewise, -/
theorem sout_C (c : Dev nD) (i : grid0.Coords) (a2 : Memref sig .tc .vmem S64x64x512 .f32) (h2 : a2.IsWhole) (a3 : Memref sig .tc .vmem S64x64x256 .f32) (h3 : a3.IsWhole) (a4 : Memref sig .tc .vmem S64x512 .f32) (h4 : a4.IsWhole) (a5 : Memref sig .tc .vmem S64x512 .f32) (h5 : a5.IsWhole) (hc0 : ¬cond0_0 i) (hc1 : cond0_1 i)
    (x0 : Vec Ideal S64x64x512 .f32) (x1 : Vec Ideal S64x64x256 .f32) (xs0 : Vec Ideal S64x512 .f32) :
    sout0_C_0 (F := Ideal) c i a2 h2 a3 h3 a4 h4 a5 h5 hc0 hc1 x0 x1 xs0 = stepFn x0 x1 xs0 := by
  unfold sout0_C_0
  rw [View.read_writes_eq_canon _ _ _ (scover0_C_0 c i a2 h2 a3 h3 a4 h4 a5 h5 hc0 hc1 x0 x1 xs0)]
  funext y
  have hc := scover0_C_0 c i a2 h2 a3 h3 a4 h4 a5 h5 hc0 hc1 x0 x1 xs0 y
  revert hc
  unfold kernelRun0_C
  dsimp only
  sl_unfold_words
  simp only [pay1_eq, pay4_eq, pay5_eq, pay6_eq, pay9_eq, pay10_eq, pay8_pay7_eq, View.readAt_eq_ld, h2.read_unread, h3.read_unread, h5.read_unread]
  intro hc
  refine View.canon_apply_of_pieces (stepFn x0 x1 xs0) _ ?_ y hc
  intro p hp
  simp only [List.mem_cons, List.mem_nil_iff, or_false] at hp
  rcases hp with rfl | rfl | rfl | rfl | rfl | rfl | rfl | rfl
  all_goals exact fun x => piece_eq _ (by omega) _ _ _ x0 x1 xs0 x

/-- and the output block is a copy of the scratch as the eight chunks left it. -/
theorem out_C (c : Dev nD) (i : grid0.Coords) (a2 : Memref sig .tc .vmem S64x64x512 .f32) (h2 : a2.IsWhole) (a3 : Memref sig .tc .vmem S64x64x256 .f32) (h3 : a3.IsWhole) (a4 : Memref sig .tc .vmem S64x512 .f32) (h4 : a4.IsWhole) (a5 : Memref sig .tc .vmem S64x512 .f32) (h5 : a5.IsWhole) (hc0 : ¬cond0_0 i) (hc1 : cond0_1 i)
    (x0 : Vec Ideal S64x64x512 .f32) (x1 : Vec Ideal S64x64x256 .f32) (xs0 : Vec Ideal S64x512 .f32) :
    out0_C_2 (F := Ideal) c i a2 h2 a3 h3 a4 h4 a5 h5 hc0 hc1 x0 x1 xs0 = stepFn x0 x1 xs0 := by
  rw [← sout_C c i a2 h2 a3 h3 a4 h4 a5 h5 hc0 hc1 x0 x1 xs0]
  unfold out0_C_2 sout0_C_0
  rw [View.read_writes_eq_canon _ _ _ (cover0_C_2 c i a2 h2 a3 h3 a4 h4 a5 h5 hc0 hc1 x0 x1 xs0),
    View.read_writes_eq_canon _ _ _ (scover0_C_0 c i a2 h2 a3 h3 a4 h4 a5 h5 hc0 hc1 x0 x1 xs0)]
  unfold kernelRun0_C
  dsimp only
  sl_unfold_words
  rw [View.canon_unit_zero hz2, View.readCov_eq_canon']
  exact View.ld_unit_zero (S := S64x512) hz2 _ (View.canon _)

/-- The first support tile of a sweep: the scratch is filled with −∞ and then stepped. -/
theorem sout_A (c : Dev nD) (i : grid0.Coords) (a2 : Memref sig .tc .vmem S64x64x512 .f32) (h2 : a2.IsWhole) (a3 : Memref sig .tc .vmem S64x64x256 .f32) (h3 : a3.IsWhole) (a4 : Memref sig .tc .vmem S64x512 .f32) (h4 : a4.IsWhole) (a5 : Memref sig .tc .vmem S64x512 .f32) (h5 : a5.IsWhole) (hc0 : cond0_0 i) (hc1 : ¬cond0_1 i)
    (x0 : Vec Ideal S64x64x512 .f32) (x1 : Vec Ideal S64x64x256 .f32) :
    sout0_A_0 (F := Ideal) c i a2 h2 a3 h3 a4 h4 a5 h5 hc0 hc1 x0 x1 = stepFn x0 x1 (k0_pay2 (F := Ideal)) := by
  unfold sout0_A_0
  rw [View.read_writes_eq_canon _ _ _ (scover0_A_0 c i a2 h2 a3 h3 a4 h4 a5 h5 hc0 hc1 x0 x1)]
  unfold kernelRun0_A
  dsimp only
  sl_unfold_words
  repeat rw [readCov_skip (h := by norm_num)]
  simp only [View.readCov_eq_canon', View.canon_unit_zero (S := S64x512) hz2]
  simp only [pay1_eq, pay4_eq, pay5_eq, pay6_eq, pay9_eq, pay10_eq, pay8_pay7_eq, View.readAt_eq_ld, h2.read_unread, h3.read_unread]
  funext y
  refine View.canon_append_of_pieces (stepFn x0 x1 (k0_pay2 (F := Ideal))) [_] [_, _, _, _, _, _, _, _] ?_ y
    (View.cover_of_tiledL (s := S64x512) _ S8x512.size (by sl_kernel_rfl) y)
  intro p hp
  simp only [List.mem_cons, List.mem_nil_iff, or_false] at hp
  rcases hp with rfl | rfl | rfl | rfl | rfl | rfl | rfl | rfl
  all_goals exact fun x => piece_eq _ (by omega) _ _ _ x0 x1 (k0_pay2 (F := Ideal)) x

end Cert.KernelIdeal.BestSim

end
-- ==== Proof.Accum.lean ====
/-
  The scratch accumulator over the grid, over the extended reals.

  The grid has 4 × 8 points: point `n` works on query tile `n / 8` (512 query columns) and support tile `n % 8` (256
  support columns), the support tiles swept innermost. Its query block is `Q[b, d, 512 (n / 8) + q]` and its support block
  `K[b, d, 256 (n % 8) + s]`. After point `n` the scratch holds, at (b, q), the maximum of the similarities of query column
  `512 (n / 8) + q` with the supports below `256 (n % 8 + 1)`: the first point of a sweep starts it from −∞ over the first
  256 supports, every later point of the sweep adds its 256 supports to what the point before left (the tile law of the
  running maximum), and the query tile does not change inside a sweep. By induction on the point.
-/
import proofs.«127846_j47485158425242_1_alg».proof.Proof.Pieces

set_option maxRecDepth 16384

noncomputable section

namespace Cert.KernelIdeal.BestSim

open Idealize.ShloMosaic Idealize.ShloMosaic.TcCoe Idealize.ShloMosaic.ValueIdx Idealize.SL.Sem
open Cert.KernelIdeal Cert.KernelIdeal.Gen
open Cert.BestSim (runMax runMax_tile runMax_zero sim)

variable (m : (ℓ : Loc nD τ sig) → Buf (Elt Ideal) ℓ)

/-- The two argument arrays as the region finds them, and a point's two input blocks, at their literal types. -/
abbrev Qarr (c : Dev nD) : Vec Ideal S64x64x2048 .f32 := V m c main_arg0
abbrev Karr (c : Dev nD) : Vec Ideal S64x64x2048 .f32 := V m c main_arg1
abbrev qblk (c : Dev nD) (t : Fin cfg0.N) : Vec Ideal S64x64x512 .f32 := iblk m c 0 t
abbrev kblk (c : Dev nD) (t : Fin cfg0.N) : Vec Ideal S64x64x256 .f32 := iblk m c 1 t

/-! ## The index maps, decided over the grid -/

theorem idx_q : ∀ t : Fin cfg0.N, win0_0.index t 0 = 0 ∧ win0_0.index t 1 = 0 ∧ win0_0.index t 2 = t.val / 8 :=
  (by decide +kernel : ∀ t : Fin grid0.N, win0_0.index t 0 = 0 ∧ win0_0.index t 1 = 0 ∧ win0_0.index t 2 = t.val / 8)
theorem idx_k : ∀ t : Fin cfg0.N, win0_1.index t 0 = 0 ∧ win0_1.index t 1 = 0 ∧ win0_1.index t 2 = t.val % 8 :=
  (by decide +kernel : ∀ t : Fin grid0.N, win0_1.index t 0 = 0 ∧ win0_1.index t 1 = 0 ∧ win0_1.index t 2 = t.val % 8)

theorem lt32 (t : Fin cfg0.N) : t.val < 32 := lt_of_lt_of_eq t.isLt (show cfg0.N = 32 from N_0)

/-- Query column `q` of the tile of point `n`, in the whole array. -/
def colQ (n : ℕ) (q : Fin 512) : Fin 2048 := ⟨(512 * (n / 8) + q.val) % 2048, Nat.mod_lt _ (by norm_num)⟩

theorem colQ_val (t : Fin cfg0.N) (q : Fin 512) : (colQ t.val q).val = 512 * (t.val / 8) + q.val := by
  have := lt32 t; have := q.isLt
  show (512 * (t.val / 8) + q.val) % 2048 = _
  exact Nat.mod_eq_of_lt (by omega)

/-! ## The input blocks, read in the arrays -/

theorem qblk_at (c : Dev nD) (t : Fin cfg0.N) (b d : Fin 64) (q : Fin 512) :
    qblk m c t (ix3 b d q) = Qarr m c (ix3 b d (colQ t.val q)) := by
  obtain ⟨h0, h1, h2⟩ := idx_q t
  have hc := colQ_val t q
  show iblk m c 0 t (ix3 b d q) = _
  unfold iblk
  rw [View.read_apply]
  show V m c main_arg0 _ = V m c main_arg0 _
  congr 1
  funext a
  apply Fin.ext
  match a with
  | ⟨0, _⟩ => show win0_0.index t 0 * 64 + 1 * b.val = b.val; rw [h0]; omega
  | ⟨1, _⟩ => show win0_0.index t 1 * 64 + 1 * d.val = d.val; rw [h1]; omega
  | ⟨2, _⟩ => show win0_0.index t 2 * 512 + 1 * q.val = (colQ t.val q).val; rw [h2, hc]; omega

theorem kblk_at (c : Dev nD) (t : Fin cfg0.N) (b d : Fin 64) (s : Fin 256) (hs : 256 * (t.val % 8) + s.val < 2048) :
    kblk m c t (ix3 b d s) = Karr m c (ix3 b d (⟨256 * (t.val % 8) + s.val, hs⟩ : Fin 2048)) := by
  obtain ⟨h0, h1, h2⟩ := idx_k t
  show iblk m c 1 t (ix3 b d s) = _
  unfold iblk
  rw [View.read_apply]
  show V m c main_arg1 _ = V m c main_arg1 _
  congr 1
  funext a
  apply Fin.ext
  match a with
  | ⟨0, _⟩ => show win0_1.index t 0 * 64 + 1 * b.val = b.val; rw [h0]; omega
  | ⟨1, _⟩ => show win0_1.index t 1 * 64 + 1 * d.val = d.val; rw [h1]; omega
  | ⟨2, _⟩ => show win0_1.index t 2 * 256 + 1 * s.val = 256 * (t.val % 8) + s.val; rw [h2]; omega

/-! ## What the scratch holds after a point -/

/-- The similarities of batch `b` and query column `q` of point `n`'s tile with every support. -/
def simRow (c : Dev nD) (n : ℕ) (b : Fin 64) (q : Fin 512) : Fin 2048 → EReal :=
  fun s => sim (Qarr m c) (Karr m c) b (colQ n q) s

/-- After point `n`: the maximum over the supports of the tiles swept so far. -/
def accAtI (c : Dev nD) (n : ℕ) (b : Fin 64) (q : Fin 512) : EReal :=
  runMax ninf (simRow m c n b q) (256 * (n % 8 + 1))

def accAt (c : Dev nD) (n : ℕ) : Vec Ideal S64x512 .f32 := fun y => accAtI m c n (y 0) (y 1)

/-- The body's maximum over its support tile is the maximum of the similarities with the tile's 256 supports. -/
theorem tile_eq (c : Dev nD) (t : Fin cfg0.N) (b : Fin 64) (q : Fin 512) :
    ((Finset.univ : Finset (Fin 256)).fold max ninf fun s => ∑ d : Fin 64, qblk m c t (ix3 b d q) * kblk m c t (ix3 b d s))
      = (Finset.univ : Finset (Fin 256)).fold max ninf fun s =>
          simRow m c t.val b q ⟨256 * (t.val % 8) + s.val, by have := s.isLt; omega⟩ := by
  refine congrArg (fun f => Finset.fold max ninf f (Finset.univ : Finset (Fin 256))) (funext fun s => ?_)
  unfold simRow sim
  refine Finset.sum_congr rfl fun d _ => ?_
  rw [qblk_at, kblk_at m c t b d s (by have := s.isLt; omega)]

theorem tile_split (t : Fin cfg0.N) : 256 * (t.val % 8 + 1) = 256 * (t.val % 8) + 256 := by ring

/-- The first point of a sweep: the −∞ fill, stepped, is the maximum over the first 256 supports. -/
theorem step_first (c : Dev nD) (t : Fin cfg0.N) (h0 : t.val % 8 = 0) :
    (outsAt0 m c t.val t.isLt).2 = accAt m c t.val := by
  have h1 : ¬t.val % 8 = 7 := by omega
  rw [outsAt0_A m c t h0 h1]
  dsimp only
  rw [sout_A]
  funext y
  obtain ⟨b, q, rfl⟩ : ∃ (b : Fin 64) (q : Fin 512), y = ix2 b q := ⟨y 0, y 1, eq_ix2 y⟩
  show stepAt (qblk m c t) (kblk m c t) (k0_pay2 (F := Ideal)) b q = accAtI m c t.val b q
  unfold stepAt accAtI
  have hr : runMax ninf (simRow m c t.val b q) (256 * (t.val % 8)) = ninf := by
    rw [show 256 * (t.val % 8) = 0 by omega]; exact runMax_zero _ _
  rw [fill_at, tile_eq m c t b q, tile_split t, runMax_tile _ _ _ (by omega), hr]

/-- A later point of a sweep: what the point before left, stepped, adds this tile's 256 supports. -/
theorem step_acc (c : Dev nD) (t : Fin cfg0.N) (h0 : ¬t.val % 8 = 0) :
    stepFn (qblk m c t) (kblk m c t) (accAt m c (t.val - 1)) = accAt m c t.val := by
  funext y
  obtain ⟨b, q, rfl⟩ : ∃ (b : Fin 64) (q : Fin 512), y = ix2 b q := ⟨y 0, y 1, eq_ix2 y⟩
  show stepAt (qblk m c t) (kblk m c t) (accAt m c (t.val - 1)) b q = accAtI m c t.val b q
  unfold stepAt
  show max (accAtI m c (t.val - 1) b q) _ = _
  unfold accAtI
  have hq : colQ (t.val - 1) q = colQ t.val q := Fin.ext (by
    show (512 * ((t.val - 1) / 8) + q.val) % 2048 = (512 * (t.val / 8) + q.val) % 2048
    rw [show (t.val - 1) / 8 = t.val / 8 by omega])
  have hg : simRow m c (t.val - 1) b q = simRow m c t.val b q := by
    unfold simRow; rw [hq]
  rw [tile_eq m c t b q, tile_split t, runMax_tile _ _ _ (by omega), hg, show (t.val - 1) % 8 + 1 = t.val % 8 by omega]

theorem step_next (c : Dev nD) (t : Fin cfg0.N) (h0 : ¬t.val % 8 = 0)
    (ih : (outsAt0 m c (t.val - 1) (Nat.lt_of_le_of_lt (Nat.sub_le _ _) t.isLt)).2 = accAt m c (t.val - 1)) :
    (outsAt0 m c t.val t.isLt).2 = accAt m c t.val := by
  by_cases h1 : t.val % 8 = 7
  · rw [outsAt0_C m c t h0 h1]
    dsimp only
    rw [sout_C, ih]
    exact step_acc m c t h0
  · rw [outsAt0_B m c t h0 h1]
    dsimp only
    rw [sout_B, ih]
    exact step_acc m c t h0

/-- THE INVARIANT: after every point the scratch holds the running maximum. -/
theorem outsAt_snd (c : Dev nD) : ∀ (n : ℕ) (hn : n < cfg0.N), (outsAt0 m c n hn).2 = accAt m c n
  | 0, hn => step_first m c ⟨0, hn⟩ rfl
  | n + 1, hn => by
    by_cases h0 : (n + 1) % 8 = 0
    · exact step_first m c ⟨n + 1, hn⟩ h0
    · exact step_next m c ⟨n + 1, hn⟩ h0 (outsAt_snd c n (Nat.lt_of_succ_lt hn))

/-- At the last point of a sweep the output block is what the scratch ends at. -/
theorem outsAt_fst (c : Dev nD) (t : Fin cfg0.N) (h1 : t.val % 8 = 7) :
    (outsAt0 m c t.val t.isLt).1 = accAt m c t.val := by
  have h0 : ¬t.val % 8 = 0 := by omega
  rw [← outsAt_snd m c t.val t.isLt, outsAt0_C m c t h0 h1]
  dsimp only
  rw [out_C, sout_C]

end Cert.KernelIdeal.BestSim

end
-- ==== Proof.Result.lean ====
/-
  The kernel's result, over the extended reals.

  The output block of query tile `n / 8` is written back at the last point of its sweep (`n % 8 = 7`), when the scratch
  has met all 8 · 256 = 2048 supports: the running maximum over all of them is the plain maximum, so the block written
  back is the block of `best` (the best match of every query column against every support). The four blocks tile the
  [64, 2048] array, so after the region the array is `best` of the two arguments. The host lines after the region then
  sum each batch's 2048 best matches from 0 and divide by 2048: the tail, which both programs share.
-/
import proofs.«127846_j47485158425242_1_alg».proof.Proof.Accum
import Idealize.ShloMosaic.Lib.StableHlo.Run

set_option maxRecDepth 16384

noncomputable section

namespace Cert.KernelIdeal.BestSim

open Idealize.ShloMosaic Idealize.ShloMosaic.TcCoe Idealize.ShloMosaic.ValueIdx Idealize.SL.Sem
open Idealize.ShloMosaic.Pipeline (Dat)
open Cert.KernelIdeal Cert.KernelIdeal.Gen
open Cert.BestSim (runMax runMax_full sim best)

variable (m : (ℓ : Loc nD τ sig) → Buf (Elt Ideal) ℓ) (ρ : Dev nD → PrngReg)

/-- The best-match array of the two arguments as the region finds them. -/
def bestArr (c : Dev nD) : Vec Ideal S64x2048 .f32 := best ninf (Qarr m c) (Karr m c)

theorem idx_o : ∀ t : Fin cfg0.N, win0_2.index t 0 = 0 ∧ win0_2.index t 1 = t.val / 8 :=
  (by decide +kernel : ∀ t : Fin grid0.N, win0_2.index t 0 = 0 ∧ win0_2.index t 1 = t.val / 8)

/-- At the last point of a sweep the scratch, at (b, q), is the best match of query column `512 (n / 8) + q`. -/
theorem acc_full (c : Dev nD) (t : Fin cfg0.N) (h7 : t.val % 8 = 7) (y : S64x512.Idx) (i : S64x2048.Idx)
    (hi0 : (i 0).val = (y 0).val) (hi1 : (i 1).val = 512 * (t.val / 8) + (y 1).val) :
    accAt m c t.val y = bestArr m c i := by
  obtain ⟨b, q, rfl⟩ : ∃ (b : Fin 64) (q : Fin 512), y = ix2 b q := ⟨y 0, y 1, eq_ix2 y⟩
  have hi : i = ix2 b (colQ t.val q) := funext fun a => Fin.ext (by
    match a with
    | ⟨0, _⟩ => exact hi0
    | ⟨1, _⟩ => exact hi1.trans (colQ_val t q).symm)
  subst hi
  show runMax ninf (simRow m c t.val b q) (256 * (t.val % 8 + 1))
    = (Finset.univ : Finset (Fin 2048)).fold max ninf fun s => sim (Qarr m c) (Karr m c) b (colQ t.val q) s
  rw [show 256 * (t.val % 8 + 1) = 2048 by omega, runMax_full]
  rfl

/-- WHAT A WRITING POINT WRITES BACK is its block of the best-match array. -/
theorem flushed_eq (c : Dev nD) (t : Fin cfg0.N) (hf : (cfg0.win 2).flush t = true) :
    (dats m 0 c).flushed 2 t = ((cfg0.win 2).blk t).view.read (Elt Ideal) (bestArr m c) := by
  have h7 : t.val % 8 = 7 := (flush0_2 t).mp hf
  obtain ⟨e0, e1⟩ := idx_o t
  show (cfg0.win 2).cut (grid0.coords t) ((dats m 0 c).after 2 t) = _
  rw [after0_2, outsAt_fst m c t h7]
  funext j
  show accAt m c t.val j = bestArr m c (((cfg0.win 2).blk t).view.emb j)
  refine acc_full m c t h7 j _ ?_ ?_
  · show win0_2.index t 0 * 64 + 1 * (j 0).val = (j 0).val
    rw [e0]; omega
  · show win0_2.index t 1 * 512 + 1 * (j 1).val = 512 * (t.val / 8) + (j 1).val
    rw [e1]; omega

/-- An index of the array is in point `t`'s block iff each coordinate is in the block's range on its axis. -/
theorem mem_blk (t : Fin cfg0.N) (i : S64x2048.Idx) :
    i ∈ ((cfg0.win 2).blk t).view.set ↔ ∀ a : Fin 2, win0_2.index t a * S64x512.size a ≤ (i a).val ∧ (i a).val < win0_2.index t a * S64x512.size a + S64x512.size a := by
  show i ∈ ((View.whole main_v0).slice (win0_2.rect t)).set ↔ _
  rw [View.set_slice_whole, Rect.mem_set_unit]
  exact Iff.rfl

/-- Every query column lies in the block written back at the end of its tile's sweep. -/
theorem cover (i : S64x2048.Idx) : ∃ t : Fin cfg0.N, (cfg0.win 2).flush t = true ∧ i ∈ ((cfg0.win 2).blk t).view.set := by
  have hi0 : (i 0).val < 64 := (i 0).isLt
  have hi1 : (i 1).val < 2048 := (i 1).isLt
  have hN : cfg0.N = 32 := N_0
  have hlt : 8 * ((i 1).val / 512) + 7 < cfg0.N := by rw [hN]; omega
  obtain ⟨e0, e1⟩ := idx_o ⟨8 * ((i 1).val / 512) + 7, hlt⟩
  have e1' : win0_2.index ⟨8 * ((i 1).val / 512) + 7, hlt⟩ 1 = (8 * ((i 1).val / 512) + 7) / 8 := e1
  refine ⟨⟨8 * ((i 1).val / 512) + 7, hlt⟩, (flush0_2 _).mpr (by show (8 * ((i 1).val / 512) + 7) % 8 = 7; omega), ?_⟩
  rw [mem_blk]
  intro a
  match a with
  | ⟨0, _⟩ =>
    show win0_2.index ⟨8 * ((i 1).val / 512) + 7, hlt⟩ 0 * 64 ≤ (i 0).val ∧ (i 0).val < win0_2.index ⟨8 * ((i 1).val / 512) + 7, hlt⟩ 0 * 64 + 64
    rw [e0]; omega
  | ⟨1, _⟩ =>
    show win0_2.index ⟨8 * ((i 1).val / 512) + 7, hlt⟩ 1 * 512 ≤ (i 1).val ∧ (i 1).val < win0_2.index ⟨8 * ((i 1).val / 512) + 7, hlt⟩ 1 * 512 + 512
    rw [e1']; omega

/-- THE ARRAY after the region: the best-match array. -/
theorem final (c : Dev nD) : (dats m 0 c).arrAt 2 cfg0.N = bestArr m c :=
  (dats m 0 c).arrAt_eq_of_cover 2 (bestArr m c) (flushed_eq m c) cover

/-! ## The host lines after the region -/

/-- The tail both programs end with: each batch's sum of its 2048 entries from 0, divided by 2048. -/
def tail (X : Vec Ideal S64x2048 .f32) : Vec Ideal S64 .f32 :=
  Host.divf (Host.reduceAdd X (constant (F := Ideal) S_ .f32 0x00000000#32) Facts₀.reducesTo_S64x2048_S64_d1 Facts₀.h_S_)
    (broadcastInDim S64 ![] Facts₀.bcast_S_S64 (constant (F := Ideal) S_ .f32 0x45000000#32))

/-- What the lines after the region leave in the result buffer: the tail of the best-match array. -/
theorem tail_eq (c : Dev nD) :
    Pipeline.afterTail₀ cfgs (dats m) 0 (V0 m) [hostOps1] c main_v3 = tail (bestArr m c) := by
  unfold Pipeline.afterTail₀
  show StableHlo.after hostOps1 _ (Proc.devRef .tc main_v3) = _
  after_results
  unfold tail
  rw [show Pipeline.withArrays (cfgs 0).spec c (V0 m c) (fun w => (dats m 0 c).arrAt w (cfgs 0).N) (Proc.devRef .tc main_v0) = bestArr m c from
    (Pipeline.withArrays_arr spec0 launch0.win.arr_inj c _ _ 2).trans (final m c)]

/-- THE RUN, READ: the result buffer at the tail of the best-match array, the arguments unchanged. -/
theorem run : θ_run defs (onTc (τ := τ) (main (F := Ideal))) ⟨m, fun _ => 0, ρ⟩ fun r => ∀ c : Dev nD,
      r.2.mem ((c.tc : Thread nD τ).loc main_v3) = tail (bestArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.BestSim

end
-- ==== Proof.lean ====
/-
  The kernel computes, for each of 64 batches, the mean over 2048 query columns of the best similarity of the query
  column with any of 2048 support columns, the similarity being the dot product over 64 features:
      out[b] = (∑ q, max over s of ∑ d, Q[b, d, q] · K[b, d, s]) / 2048.
  The reference computes the same in three whole-array steps. The kernel tiles it: a 4 × 8 grid over 512 query columns
  and 256 support columns, a scratch that keeps the running maximum over the support tiles swept so far, eight chunks of
  eight batches per grid point, the inputs cast to bf16 before the product. Over the extended reals a change of float
  format is the identity, a product into a zero accumulator is the plain sum of products, and `max` is associative,
  commutative and idempotent, so the running maximum over the eight support tiles is the maximum over all supports
  (Proof/Spec.lean, the tile law): the array the kernel's region leaves is the reference's maximum array, entry by entry
  (Proof/Result.lean, Proof/RefRead.lean). Both programs then apply the same sum and the same division by 2048, so
  their results are one function of one array. No law used needs the inputs to be finite, and the ideal pass rewrote
  nothing, so its conjunct is trivial. The three frames are the generated runs.
-/
import proofs.«127846_j47485158425242_1_alg».proof.Defs
import proofs.«127846_j47485158425242_1_alg».proof.Proof.Gen.Kernel
import proofs.«127846_j47485158425242_1_alg».proof.Proof.Gen.Kernel.Frame
import proofs.«127846_j47485158425242_1_alg».proof.Proof.Gen.KernelIdeal
import proofs.«127846_j47485158425242_1_alg».proof.Proof.Gen.KernelIdeal.Frame
import proofs.«127846_j47485158425242_1_alg».proof.Proof.Gen.ReferenceIdeal
import proofs.«127846_j47485158425242_1_alg».proof.Proof.Gen.ReferenceIdeal.Run
import proofs.«127846_j47485158425242_1_alg».proof.Proof.Gen.Pre_finite_inputs
import proofs.«127846_j47485158425242_1_alg».proof.Proof.RefRead
import proofs.«127846_j47485158425242_1_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the shared tail (sum over the query columns from 0, divided by 2048) of one array: the kernel's
    region leaves the best-match array, and the reference's maximum over the supports of its batched product is that
    array. -/
theorem algebraic : Cert.algebraic_KernelIdeal_ReferenceIdeal := by
  intro m ρ m' ρ' _ hagree
  refine ⟨fun c => Cert.KernelIdeal.BestSim.tail (Cert.KernelIdeal.BestSim.bestArr m c), Cert.KernelIdeal.BestSim.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact congrArg Cert.KernelIdeal.BestSim.tail (Cert.ReferenceIdeal.BestSim.v1_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
